-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x128x256x256 : Shape := ⟨4, ![16, 128, 256, 256]⟩
abbrev S_ : Shape := ⟨0, ![]⟩

class Facts : Prop where
  bcast_S_S16x128x256x256 : S_.BroadcastsInDim S16x128x256x256 (![] : Fin 0 → Fin S16x128x256x256.rank)
  reducesTo_S16x128x256x256_S_d0_1_2_3 : S16x128x256x256.ReducesTo [0, 1, 2, 3] S_
  h_S_ : 0 < S_.numel

variable [Facts]

def fn {F : FTy → Type} [FloatOps F] (main_arg0 : FVec F S16x128x256x256 .f32) : IVec S_ 1 :=
  let main_v0 : FVec F S16x128x256x256 .f32 := Host.absf main_arg0
  let main_cst : FVec F S_ .f32 := constant S_ .f32 0x7F800000#32
  let main_v1 : FVec F S16x128x256x256 .f32 := broadcastInDim S16x128x256x256 ![] bcast_S_S16x128x256x256 main_cst
  let main_v2 : IVec S16x128x256x256 1 := cmpf .olt main_v0 main_v1
  let main_c : IVec S_ 1 := constantI S_ 1 1#1
  let main_v3 : IVec S_ 1 := (fun x v => Host.reduce IntOp.andi x v reducesTo_S16x128x256x256_S_d0_1_2_3 h_S_) main_v2 main_c
  main_v3
-- ==== Kernel.lean ====
abbrev S16x128x256x256 : Shape := ⟨4, ![16, 128, 256, 256]⟩
abbrev S16x128x128x2x128x2 : Shape := ⟨6, ![16, 128, 128, 2, 128, 2]⟩
abbrev S16x128x2x2x128x128 : Shape := ⟨6, ![16, 128, 2, 2, 128, 128]⟩
abbrev S16x128x4x128x128 : Shape := ⟨5, ![16, 128, 4, 128, 128]⟩
abbrev S16x128x128x128 : Shape := ⟨4, ![16, 128, 128, 128]⟩
abbrev S1x16x4x128x128 : Shape := ⟨5, ![1, 16, 4, 128, 128]⟩
abbrev S1x16x128x128 : Shape := ⟨4, ![1, 16, 128, 128]⟩
abbrev S1x16x1x128x128 : Shape := ⟨5, ![1, 16, 1, 128, 128]⟩
abbrev S16x128x128 : Shape := ⟨3, ![16, 128, 128]⟩

abbrev nBuf : Space → Nat
  | .hbm => 5
  | .vmem => 4
  | .smem => 0
  | _ => 0

abbrev bufTy : (tb : Table) → Fin (tcTables nBuf tb) → BufTy
  | .hbm, ⟨0, _⟩ => ⟨S16x128x256x256, .f32⟩
  | .hbm, ⟨1, _⟩ => ⟨S16x128x128x2x128x2, .f32⟩
  | .hbm, ⟨2, _⟩ => ⟨S16x128x2x2x128x128, .f32⟩
  | .hbm, ⟨3, _⟩ => ⟨S16x128x4x128x128, .f32⟩
  | .hbm, ⟨4, _⟩ => ⟨S16x128x128x128, .f32⟩
  | .local _ .vmem, ⟨0, _⟩ => ⟨S1x16x4x128x128, .f32⟩
  | .local _ .vmem, ⟨1, _⟩ => ⟨S1x16x4x128x128, .f32⟩
  | .local _ .vmem, ⟨2, _⟩ => ⟨S1x16x128x128, .f32⟩
  | .local _ .vmem, ⟨3, _⟩ => ⟨S1x16x128x128, .f32⟩
  | _, _ => ⟨S16x128x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![16, 8], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x16x4x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  shapeCasts_S16x128x256x256_S16x128x128x2x128x2 : S16x128x256x256.ShapeCasts S16x128x128x2x128x2
  transposes_S16x128x128x2x128x2_S16x128x2x2x128x128_0_1_3_5_2_4 : S16x128x128x2x128x2.Transposes [0, 1, 3, 5, 2, 4] S16x128x2x2x128x128
  shapeCasts_S16x128x2x2x128x128_S16x128x4x128x128 : S16x128x2x2x128x128.ShapeCasts S16x128x4x128x128
  inb_S1x16x4x128x128_S1x16x1x128x128_0_0_0_0_0 : ∀ a, (![0, 0, 0, 0, 0] : Fin 5 → Nat) a + S1x16x1x128x128.size a ≤ S1x16x4x128x128.size a
  h_S1x16x1x128x128 : 0 < S1x16x1x128x128.numel
  shapeCasts_S1x16x1x128x128_S16x128x128 : S1x16x1x128x128.ShapeCasts S16x128x128
  inb_S1x16x4x128x128_S1x16x1x128x128_0_0_1_0_0 : ∀ a, (![0, 0, 1, 0, 0] : Fin 5 → Nat) a + S1x16x1x128x128.size a ≤ S1x16x4x128x128.size a
  inb_S1x16x4x128x128_S1x16x1x128x128_0_0_2_0_0 : ∀ a, (![0, 0, 2, 0, 0] : Fin 5 → Nat) a + S1x16x1x128x128.size a ≤ S1x16x4x128x128.size a
  inb_S1x16x4x128x128_S1x16x1x128x128_0_0_3_0_0 : ∀ a, (![0, 0, 3, 0, 0] : Fin 5 → Nat) a + S1x16x1x128x128.size a ≤ S1x16x4x128x128.size a
  inb_S1x16x128x128_S1x16x128x128_0_0_0_0 : ∀ a, (![0, 0, 0, 0] : Fin 4 → Nat) a + S1x16x128x128.size a ≤ S1x16x128x128.size a
  h_S1x16x128x128 : 0 < S1x16x128x128.numel
  shapeCasts_S1x16x128x128_S16x128x128 : S1x16x128x128.ShapeCasts S16x128x128
  shapeCasts_S16x128x128_S1x16x128x128 : S16x128x128.ShapeCasts S1x16x128x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x4x128x128.size a ≤ S16x128x4x128x128.size a
  hwx0_0 : ∀ i : grid0.Coords, EltTy.bits .f32 = 32 ∨ (Rect.block (s := S16x128x4x128x128) S1x16x4x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x128x128.size a ≤ S16x128x128x128.size a
  hwx0_1 : ∀ i : grid0.Coords, EltTy.bits .f32 = 32 ∨ (Rect.block (s := S16x128x128x128) S1x16x128x128.size (cc0_transform_1 i) (hinb0_1 i)).WholeWords (EltTy.packing .f32)

variable [Facts₀]

abbrev win0_0 : Pipeline.Window sig grid0 :=
  Pipeline.Window.ofSpec (Memref.whole main_v2) S1x16x4x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x16x128x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x128x256x256 : Shape := ⟨4, ![16, 128, 256, 256]⟩
abbrev S16x128x128x2x128x2 : Shape := ⟨6, ![16, 128, 128, 2, 128, 2]⟩
abbrev S16x128x128x128x2x2 : Shape := ⟨6, ![16, 128, 128, 128, 2, 2]⟩
abbrev S16x128x128x128x4 : Shape := ⟨5, ![16, 128, 128, 128, 4]⟩
abbrev S_ : Shape := ⟨0, ![]⟩
abbrev S16x128x128x128 : Shape := ⟨4, ![16, 128, 128, 128]⟩
abbrev S16x128x128x128x1 : Shape := ⟨5, ![16, 128, 128, 128, 1]⟩

abbrev nBuf : Space → Nat
  | .hbm => 33
  | .vmem => 0
  | .smem => 0
  | _ => 0

abbrev bufTy : (tb : Table) → Fin (tcTables nBuf tb) → BufTy
  | .hbm, ⟨0, _⟩ => ⟨S16x128x256x256, .f32⟩
  | .hbm, ⟨1, _⟩ => ⟨S16x128x128x2x128x2, .f32⟩
  | .hbm, ⟨2, _⟩ => ⟨S16x128x128x128x2x2, .f32⟩
  | .hbm, ⟨3, _⟩ => ⟨S16x128x128x128x4, .f32⟩
  | .hbm, ⟨4, _⟩ => ⟨S_, .f32⟩
  | .hbm, ⟨5, _⟩ => ⟨S16x128x128x128x4, .f32⟩
  | .hbm, ⟨6, _⟩ => ⟨S16x128x128x128x4, .i1⟩
  | .hbm, ⟨7, _⟩ => ⟨S_, .f32⟩
  | .hbm, ⟨8, _⟩ => ⟨S16x128x128x128x4, .f32⟩
  | .hbm, ⟨9, _⟩ => ⟨S16x128x128x128x4, .f32⟩
  | .hbm, ⟨10, _⟩ => ⟨S_, .f32⟩
  | .hbm, ⟨11, _⟩ => ⟨S16x128x128x128x4, .f32⟩
  | .hbm, ⟨12, _⟩ => ⟨S16x128x128x128x4, .f32⟩
  | .hbm, ⟨13, _⟩ => ⟨S16x128x128x128x4, .f32⟩
  | .hbm, ⟨14, _⟩ => ⟨S16x128x128x128x4, .f32⟩
  | .hbm, ⟨15, _⟩ => ⟨S16x128x128x128x4, .i1⟩
  | .hbm, ⟨16, _⟩ => ⟨S16x128x128x128x4, .f32⟩
  | .hbm, ⟨17, _⟩ => ⟨S16x128x128x128x4, .f32⟩
  | .hbm, ⟨18, _⟩ => ⟨S16x128x128x128x4, .f32⟩
  | .hbm, ⟨19, _⟩ => ⟨S16x128x128x128x4, .f32⟩
  | .hbm, ⟨20, _⟩ => ⟨S16x128x128x128x4, .f32⟩
  | .hbm, ⟨21, _⟩ => ⟨S16x128x128x128x4, .f32⟩
  | .hbm, ⟨22, _⟩ => ⟨S16x128x128x128x4, .f32⟩
  | .hbm, ⟨23, _⟩ => ⟨S16x128x128x128x4, .f32⟩
  | .hbm, ⟨24, _⟩ => ⟨S16x128x128x128x4, .f32⟩
  | .hbm, ⟨25, _⟩ => ⟨S_, .f32⟩
  | .hbm, ⟨26, _⟩ => ⟨S16x128x128x128, .f32⟩
  | .hbm, ⟨27, _⟩ => ⟨S16x128x128x128x1, .f32⟩
  | .hbm, ⟨28, _⟩ => ⟨S16x128x128x128x4, .f32⟩
  | .hbm, ⟨29, _⟩ => ⟨S16x128x128x128x4, .f32⟩
  | .hbm, ⟨30, _⟩ => ⟨S16x128x128x128x4, .f32⟩
  | .hbm, ⟨31, _⟩ => ⟨S_, .f32⟩
  | .hbm, ⟨32, _⟩ => ⟨S16x128x128x128, .f32⟩
  | _, _ => ⟨S16x128x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_v7 : Ref sig .tc := ⟨.hbm, 23, rfl⟩
abbrev main_v8 : Ref sig .tc := ⟨.hbm, 24, rfl⟩
abbrev main_cst_1 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_2 : Ref sig .tc := ⟨.hbm, 31, rfl⟩
abbrev main_v14 : Ref sig .tc := ⟨.hbm, 32, rfl⟩

abbrev nD : Nat := 1
abbrev τ : Topo := Topo.v7x

variable {F : FTy → Type} [FloatOps F]

class Facts₀ : Prop where
  shapeCasts_S16x128x256x256_S16x128x128x2x128x2 : S16x128x256x256.ShapeCasts S16x128x128x2x128x2
  transposes_S16x128x128x2x128x2_S16x128x128x128x2x2_0_1_2_4_3_5 : S16x128x128x2x128x2.Transposes [0, 1, 2, 4, 3, 5] S16x128x128x128x2x2
  shapeCasts_S16x128x128x128x2x2_S16x128x128x128x4 : S16x128x128x128x2x2.ShapeCasts S16x128x128x128x4
  bcast_S_S16x128x128x128x4 : S_.BroadcastsInDim S16x128x128x128x4 (![] : Fin 0 → Fin S16x128x128x128x4.rank)
  reducesTo_S16x128x128x128x4_S16x128x128x128_d4 : S16x128x128x128x4.ReducesTo [4] S16x128x128x128
  h_S_ : 0 < S_.numel
  bcast_S16x128x128x128_S16x128x128x128x1_0_1_2_3 : S16x128x128x128.BroadcastsInDim S16x128x128x128x1 (![0, 1, 2, 3] : Fin 4 → Fin S16x128x128x128x1.rank)
  bcast_S16x128x128x128x1_S16x128x128x128x4_0_1_2_3_4 : S16x128x128x128x1.BroadcastsInDim S16x128x128x128x4 (![0, 1, 2, 3, 4] : Fin 5 → Fin S16x128x128x128x4.rank)

variable [Facts₀]

class Facts : Prop extends Facts₀ where

variable [Facts]
-- ==== Proof.Finite.lean ====
/-
  What the precondition says: every entry of the input is a real number.

  The precondition is "all |x| < +∞" over the whole input array: an and-reduction of the elementwise comparison
  of |x| with the infinity literal. If the reduction is 1, the comparison is 1 at every index; the infinity literal
  denotes ⊤, and an extended real whose absolute value max(x, -x) lies below ⊤ is neither ⊤ nor ⊥ (at ⊥ the
  negation is ⊤), so it is the image of a real.
-/
import proofs.«426474_j30726196035749_4_alg».proof.Pre_finite_inputs
import Idealize.ShloMosaic.Lib.ReduceAll
import Idealize.ShloMosaic.Lib.ValueIdx
import Idealize.ShloMosaic.Lib.IdealHost
import Idealize.ShloMosaic.PureOps.Ideal

noncomputable section

namespace Cert.Pool

open Idealize.ShloMosaic

variable [Cert.Pre_finite_inputs.Facts]

/-- The infinity literal denotes ⊤. -/
theorem inf_eq : Ideal.ofBits .f32 0x7F800000#32 = (⊤ : EReal) := by
  simp [Ideal.ofBits, Ideal.ieee]

/-- Under the precondition every entry of the input is (the image of) a real number. -/
theorem real_of_pre (x : FVec Ideal Cert.Pre_finite_inputs.S16x128x256x256 .f32)
    (h : Cert.Pre_finite_inputs.fn (F := Ideal) x = fun _ => 1#1)
    (i : Cert.Pre_finite_inputs.S16x128x256x256.Idx) : ∃ r : ℝ, x i = (r : EReal) := by
  have h0 := congrFun h ValueIdx.ix0
  dsimp only [Cert.Pre_finite_inputs.fn] at h0
  haveI : Subsingleton Cert.Pre_finite_inputs.S_.Idx := ⟨fun a b => funext fun d => d.elim0⟩
  have hi := Host.reduce_andi_all _ _ _ _ _ h0 i
  rw [ValueIdx.cmpf_apply, ValueIdx.broadcastInDim_scalar_apply] at hi
  have hi' : Ideal.cmp .olt (max (x i) (-(x i))) (Ideal.ofBits .f32 0x7F800000#32) = 1#1 := hi
  rw [inf_eq] at hi'
  have hlt : max (x i) (-(x i)) < ⊤ := by
    by_contra hn
    simp [Ideal.cmp, hn] at hi'
  generalize x i = y at hlt ⊢
  induction y using EReal.rec with
  | bot => simp at hlt
  | coe r => exact ⟨r, rfl⟩
  | top => simp at hlt

end Cert.Pool

end
-- ==== Proof.Weight.lean ====
/-
  One 2×2 patch of the pooling: the weight of a tap, and the law that joins the two programs.

  For a tap value p the weight is  W(p) = p  when p > 10, and otherwise
  max(min(p,10),0) + log(1 + exp(-|min(p,10)|)),  a numerically stable spelling of log(1 + exp p)
  (the test for an undefined difference that the source carries can never fire on the extended reals).
  For a REAL tap the weight is a real number and strictly positive: above 10 it is the tap itself, below it is
  a non-negative number plus log(1 + e) with e > 0.

  One program computes the weighted mean of the four taps as  (Σ pₖ·W(pₖ)) / (Σ W(pₖ)),  the other normalises
  the weights first and computes  Σ pₖ·(W(pₖ) / Σ W(pₖ')).  With real taps the denominator is a positive real, so
  division by it is multiplication by its reciprocal, and the two are equal by distributivity in ℝ.
-/
import Idealize.ShloMosaic.PureOps.Ideal
import Idealize.ShloMosaic.PureOps.Ideal.Laws
import Idealize.ShloMosaic.Lib.ValueIdx

noncomputable section

namespace Cert.Pool

open Idealize.ShloMosaic

/-- The threshold literal: the pattern of `10.0`. -/
abbrev ten : EReal := Ideal.ofBits .f32 0x41200000#32
/-- The zero literal. -/
abbrev zro : EReal := Ideal.ofBits .f32 0x00000000#32

/-- The pattern of `10.0` denotes the real number 10. -/
theorem ten_eq : ten = ((10 : ℝ) : EReal) := by
  simp [ten, Ideal.ofBits, Ideal.ieee, -EReal.coe_mul]; norm_num

/-- The zero pattern denotes 0. -/
theorem zro_eq : zro = 0 := Ideal.ofBits_zero_f32

/-- The coercion of the reals into the extended reals is monotone, so it commutes with `max`. -/
theorem coe_max (a b : ℝ) : max (a : EReal) (b : EReal) = ((max a b : ℝ) : EReal) :=
  (EReal.coe_strictMono.monotone.map_max).symm

/-- The weight of a tap, spelt as the kernel computes it: the tap itself above the threshold, else the stable
    form of log(1 + exp p) on the tap clipped at the threshold. -/
def weight (p : EReal) : EReal :=
  Scalar.select (Ideal.cmp .ogt p ten) p
    (Scalar.select (Ideal.cmp .one (min p ten - zro) (min p ten - zro)) (min p ten + zro)
      (max (min p ten) zro + Ideal.log1p (Ideal.exp (zro - max (min p ten - zro) (-(min p ten - zro))))))

/-- The same weight as the reference spells it: the unordered twin of the comparison, and a negation where the
    kernel subtracts from zero. -/
def weightRef (p : EReal) : EReal :=
  Scalar.select (Ideal.cmp .ogt p ten) p
    (Scalar.select (Ideal.cmp .une (min p ten - zro) (min p ten - zro)) (min p ten + zro)
      (max (min p ten) zro + Ideal.log1p (Ideal.exp (-(max (min p ten - zro) (-(min p ten - zro)))))))

/-- The two spellings are one function: on a linear order the ordered and unordered "not equal" agree, and
    0 - y = -y. -/
theorem weightRef_eq (p : EReal) : weightRef p = weight p := by
  unfold weightRef weight
  rw [show (zro - max (min p ten - zro) (-(min p ten - zro))) = -(max (min p ten - zro) (-(min p ten - zro))) by
    rw [zro_eq, zero_sub]]
  rfl

/-- A real tap has a real, strictly positive weight. -/
theorem weight_coe (r : ℝ) : ∃ v : ℝ, 0 < v ∧ weight (r : EReal) = (v : EReal) := by
  unfold weight
  rw [ten_eq, zro_eq]
  by_cases h : (10 : ℝ) < r
  · refine ⟨r, by linarith, ?_⟩
    have hc : Ideal.cmp .ogt (r : EReal) ((10 : ℝ) : EReal) = 1#1 := by
      simp [Ideal.cmp, h]
    rw [hc, ValueIdx.select_one]
  · have hle : (r : EReal) ≤ ((10 : ℝ) : EReal) := by exact_mod_cast not_lt.mp h
    have hc : Ideal.cmp .ogt (r : EReal) ((10 : ℝ) : EReal) = 0#1 := by
      simp [Ideal.cmp, h]
    rw [hc, ValueIdx.select_zero, min_eq_left hle, sub_zero]
    have hc2 : Ideal.cmp .one (r : EReal) (r : EReal) = 0#1 := by simp [Ideal.cmp]
    rw [hc2, ValueIdx.select_zero]
    have he : 0 < Real.exp (-(max r (-r))) := Real.exp_pos _
    refine ⟨max r 0 + Real.log (1 + Real.exp (-(max r (-r)))), ?_, ?_⟩
    · have h1 : 0 < Real.log (1 + Real.exp (-(max r (-r)))) := Real.log_pos (by linarith)
      have h2 : 0 ≤ max r 0 := le_max_right _ _
      linarith
    · rw [zero_sub, ← EReal.coe_neg, coe_max, ← EReal.coe_neg, Ideal.exp_coe, Ideal.log1p,
        ← EReal.coe_one, ← EReal.coe_add, Ideal.log_coe, if_neg (by linarith), ← EReal.coe_zero, coe_max,
        ← EReal.coe_add]

/-- The kernel's pooled value of four taps: the weighted sum over the sum of the weights. -/
def pooled (p : Fin 4 → EReal) : EReal :=
  Ideal.div (p 0 * weight (p 0) + p 1 * weight (p 1) + p 2 * weight (p 2) + p 3 * weight (p 3))
    (weight (p 0) + weight (p 1) + weight (p 2) + weight (p 3))

/-- THE LAW. With real taps, normalising the weights first and then summing the products (each sum started from
    the zero literal, as the reference's reductions are) gives the kernel's quotient of sums. -/
theorem pooled_eq_normalised (p : Fin 4 → EReal) (hp : ∀ k, ∃ r : ℝ, p k = (r : EReal)) :
    zro + ∑ k : Fin 4, p k * Ideal.div (weight (p k)) (zro + ∑ k' : Fin 4, weight (p k')) = pooled p := by
  choose r hr using hp
  have hw : ∀ k, ∃ v : ℝ, 0 < v ∧ weight (p k) = (v : EReal) := fun k => by rw [hr k]; exact weight_coe (r k)
  choose v hv0 hv using hw
  have hv' : ∀ k, weight ((r k : ℝ) : EReal) = (v k : EReal) := fun k => by rw [← hr k]; exact hv k
  have hs : v 0 + v 1 + v 2 + v 3 ≠ 0 := by
    have := hv0 0; have := hv0 1; have := hv0 2; have := hv0 3; positivity
  unfold pooled
  simp only [Fin.sum_univ_four, hr, hv', zro_eq, zero_add, ← EReal.coe_add, ← EReal.coe_mul, Ideal.div_coe hs]
  rw [EReal.coe_eq_coe_iff]
  field_simp

end Cert.Pool

end
-- ==== Proof.Taps.lean ====
/-
  The four taps of an output element, and both programs' patch layouts read at an index.

  The input is [16, 128, 256, 256]; output element (b, c, i, j) of the [16, 128, 128, 128] result pools the 2×2 patch
  of plane (b, c) whose corner is (2i, 2j). Tap k ∈ {0,1,2,3} of that patch is the input element
  (b, c, 2i + k / 2, 2j + k % 2).

  Both programs split the two spatial axes, [16,128,256,256] → [16,128,128,2,128,2], so that element
  (b, c, i, k₀, j, k₁) is input (b, c, 2i + k₀, 2j + k₁); they then bring the two patch axes together by a
  transpose and merge them into one tap axis of extent 4, k = 2·k₀ + k₁. The kernel puts the tap axis before the
  spatial axes ([16,128,4,128,128]), the reference after them ([16,128,128,128,4]); read at an index both are the
  same input element, tap k of (b, c, i, j).
-/
import Idealize.ShloMosaic.Lib.ValueIdx
import Idealize.ShloMosaic.Lib.ValueIdxRank6
import Idealize.ShloMosaic.Lib.Pipeline.Value
import proofs.«426474_j30726196035749_4_alg».proof.Proof.Weight

noncomputable section

namespace Cert.Pool

open Idealize.ShloMosaic Idealize.ShloMosaic.ValueIdx

abbrev SIn : Shape := ⟨4, ![16, 128, 256, 256]⟩
abbrev SOut : Shape := ⟨4, ![16, 128, 128, 128]⟩
abbrev SSplit : Shape := ⟨6, ![16, 128, 128, 2, 128, 2]⟩
abbrev SKer6 : Shape := ⟨6, ![16, 128, 2, 2, 128, 128]⟩
abbrev SKer5 : Shape := ⟨5, ![16, 128, 4, 128, 128]⟩
abbrev SRef6 : Shape := ⟨6, ![16, 128, 128, 128, 2, 2]⟩
abbrev SRef5 : Shape := ⟨5, ![16, 128, 128, 128, 4]⟩

/-- Tap `k` of output element (b, c, i, j): the input element (b, c, 2i + k / 2, 2j + k % 2). -/
def tapIdx (b : Fin 16) (c : Fin 128) (i j : Fin 128) (k : Fin 4) : SIn.Idx :=
  ix4 b c (⟨2 * i.val + k.val / 2, by have := i.isLt; have := k.isLt; omega⟩ : Fin 256)
    (⟨2 * j.val + k.val % 2, by have := j.isLt; have := k.isLt; omega⟩ : Fin 256)

/-- The kernel's patches, tap axis first: element (b, c, k, i, j) is tap k of (b, c, i, j). -/
theorem kernel_layout {α : Type} (x : SIn.Idx → α) (h1 : SIn.ShapeCasts SSplit)
    (h2 : SSplit.Transposes [0, 1, 3, 5, 2, 4] SKer6) (h3 : SKer6.ShapeCasts SKer5)
    (b : Fin 16) (c : Fin 128) (k : Fin 4) (i j : Fin 128) :
    shapeCast SKer5 (transpose SKer6 [0, 1, 3, 5, 2, 4] (shapeCast SSplit x h1) h2) h3 (ix5 b c k i j)
      = x (tapIdx b c i j k) := by
  have hi := i.isLt; have hj := j.isLt; have hk := k.isLt; have hb := b.isLt; have hc := c.isLt
  refine (shapeCast_apply _ h3 (ix5 b c k i j)
    (ix6 b c (⟨k.val / 2, by omega⟩ : Fin 2) (⟨k.val % 2, by omega⟩ : Fin 2) i j) ?_).trans ?_
  · rw [Shape.rowMajor_val_six, Shape.rowMajor_val_five]
    show ((((b.val * 128 + c.val) * 2 + k.val / 2) * 2 + k.val % 2) * 128 + i.val) * 128 + j.val
      = (((b.val * 128 + c.val) * 4 + k.val) * 128 + i.val) * 128 + j.val
    omega
  refine (transpose_apply [0, 1, 3, 5, 2, 4] _ h2 _
    (ix6 b c i (⟨k.val / 2, by omega⟩ : Fin 2) j (⟨k.val % 2, by omega⟩ : Fin 2)) (fun a => match a with
      | ⟨0, _⟩ => rfl | ⟨1, _⟩ => rfl | ⟨2, _⟩ => rfl | ⟨3, _⟩ => rfl | ⟨4, _⟩ => rfl | ⟨5, _⟩ => rfl)).trans ?_
  refine shapeCast_apply x h1 _ (tapIdx b c i j k) ?_
  rw [Shape.rowMajor_val_four, Shape.rowMajor_val_six]
  show ((b.val * 128 + c.val) * 256 + (2 * i.val + k.val / 2)) * 256 + (2 * j.val + k.val % 2)
    = ((((b.val * 128 + c.val) * 128 + i.val) * 2 + k.val / 2) * 128 + j.val) * 2 + k.val % 2
  omega

/-- The reference's patches, tap axis last: element (b, c, i, j, k) is tap k of (b, c, i, j). -/
theorem reference_layout {α : Type} (x : SIn.Idx → α) (h1 : SIn.ShapeCasts SSplit)
    (h2 : SSplit.Transposes [0, 1, 2, 4, 3, 5] SRef6) (h3 : SRef6.ShapeCasts SRef5)
    (b : Fin 16) (c : Fin 128) (i j : Fin 128) (k : Fin 4) :
    shapeCast SRef5 (transpose SRef6 [0, 1, 2, 4, 3, 5] (shapeCast SSplit x h1) h2) h3 (ix5 b c i j k)
      = x (tapIdx b c i j k) := by
  have hi := i.isLt; have hj := j.isLt; have hk := k.isLt; have hb := b.isLt; have hc := c.isLt
  refine (shapeCast_apply _ h3 (ix5 b c i j k)
    (ix6 b c i j (⟨k.val / 2, by omega⟩ : Fin 2) (⟨k.val % 2, by omega⟩ : Fin 2)) ?_).trans ?_
  · rw [Shape.rowMajor_val_six, Shape.rowMajor_val_five]
    show ((((b.val * 128 + c.val) * 128 + i.val) * 128 + j.val) * 2 + k.val / 2) * 2 + k.val % 2
      = (((b.val * 128 + c.val) * 128 + i.val) * 128 + j.val) * 4 + k.val
    omega
  refine (transpose_apply [0, 1, 2, 4, 3, 5] _ h2 _
    (ix6 b c i (⟨k.val / 2, by omega⟩ : Fin 2) j (⟨k.val % 2, by omega⟩ : Fin 2)) (fun a => match a with
      | ⟨0, _⟩ => rfl | ⟨1, _⟩ => rfl | ⟨2, _⟩ => rfl | ⟨3, _⟩ => rfl | ⟨4, _⟩ => rfl | ⟨5, _⟩ => rfl)).trans ?_
  refine shapeCast_apply x h1 _ (tapIdx b c i j k) ?_
  rw [Shape.rowMajor_val_four, Shape.rowMajor_val_six]
  show ((b.val * 128 + c.val) * 256 + (2 * i.val + k.val / 2)) * 256 + (2 * j.val + k.val % 2)
    = ((((b.val * 128 + c.val) * 128 + i.val) * 2 + k.val / 2) * 128 + j.val) * 2 + k.val % 2
  omega

/-- THE SPECIFICATION: the pooled array as one function of the input, index by index — at (b, c, i, j) the
    weighted mean of the four taps of its patch. -/
def pooledAt (x : SIn.Idx → EReal) : SOut.Idx → EReal :=
  fun o => pooled fun k => x (tapIdx (o 0) (o 1) (o 2) (o 3) k)

end Cert.Pool

end
-- ==== Proof.KernelValue.lean ====
/-
  The kernel's result array is the pooled array of the input.

  The region's one input window stages blocks [1, 16, 4, 128, 128] of the patch array
  [16, 128, 4, 128, 128] that the host reshape–transpose–reshape builds from the input: block (b, g) holds, for the
  16 channels c = 16g … 16g + 15 of batch b, the four taps of every output pixel. The body loads the four tap
  planes of the block, computes each plane's weights, and stores (Σ tap·weight) / (Σ weight) over the whole
  [1, 16, 128, 128] output block. So the element (0, c', i, j) the body stores is the pooled value of the four
  taps (0, c', k, i, j) of its input block, which are taps k of output element (b, 16g + c', i, j) of the input.
  The 128 output blocks tile the output array, so after the run the array is the pooled array everywhere.
-/
import proofs.«426474_j30726196035749_4_alg».proof.Proof.Gen.KernelIdeal.Value
import proofs.«426474_j30726196035749_4_alg».proof.Proof.Taps
import Idealize.ShloMosaic.Lib.Pipeline.Value
import Idealize.ShloMosaic.Lib.ValueIdx
import Idealize.ShloMosaic.Lib.StableHlo.Run

set_option maxRecDepth 16384

noncomputable section

namespace Cert.KernelIdeal.PoolValue

open Cert.KernelIdeal Cert.KernelIdeal.Gen Cert.Pool Idealize.ShloMosaic Idealize.ShloMosaic.TcCoe Idealize.SL.Sem
open Idealize.ShloMosaic.ValueIdx
open Idealize.ShloMosaic.Pipeline (Dat)

/-! ## The body's result at an index -/

/-- One tap plane of the input block, viewed [16, 128, 128]: element (c', i, j) is the block's (0, c', k, i, j). -/
theorem plane_at (x0 : Vec Ideal S1x16x4x128x128 .f32) (k : Fin 4)
    (inb : ∀ a, (![0, 0, k.val, 0, 0] : Fin 5 → Nat) a + S1x16x1x128x128.size a ≤ S1x16x4x128x128.size a)
    (h : S1x16x1x128x128.ShapeCasts S16x128x128) (c' : Fin 16) (i j : Fin 128) :
    shapeCast S16x128x128 (View.ld x0 (Rect.unit (s := S1x16x4x128x128) ![0, 0, k.val, 0, 0] S1x16x1x128x128.size inb)) h
        (ix3 c' i j)
      = x0 (ix5 (0 : Fin 1) c' k i j) := by
  refine (shapeCast_apply _ h (ix3 c' i j) (ix5 (0 : Fin 1) c' (0 : Fin 1) i j) ?_).trans ?_
  · rw [Shape.rowMajor_val_five, Shape.rowMajor_val_three]
    show (((0 * 16 + c'.val) * 1 + 0) * 128 + i.val) * 128 + j.val = (c'.val * 128 + i.val) * 128 + j.val
    omega
  · refine congrArg x0 (funext fun a => Fin.ext ?_)
    match a with
    | ⟨0, _⟩ => show 0 + 1 * 0 = 0; rfl
    | ⟨1, _⟩ => show 0 + 1 * c'.val = c'.val; omega
    | ⟨2, _⟩ => show k.val + 1 * 0 = k.val; omega
    | ⟨3, _⟩ => show 0 + 1 * i.val = i.val; omega
    | ⟨4, _⟩ => show 0 + 1 * j.val = j.val; omega

/-- The body's arithmetic is pointwise: the stored vector is, index by index, the pooled value of the four tap
    planes (every operation of the payload acts element by element, and one tap's chain of operations is the
    weight function). -/
theorem payload_pointwise (l0 l1 l2 l3 : Vec Ideal S1x16x1x128x128 .f32) :
    k0_pay1 (F := Ideal) (k0_pay2 l0) (k0_pay3 l1) (k0_pay4 l2) (k0_pay5 l3) (k0_pay6 l0)
        (k0_pay9 (k0_pay3 l1) (k0_pay7 l1) (k0_pay8 l1) (Scalar.ofBits .f32 0x00000000#32)) (k0_pay10 (k0_pay4 l2))
        (k0_pay11 (k0_pay5 l3)) (k0_pay14 (k0_pay5 l3)) (k0_pay15 (k0_pay5 l3)) (k0_pay16 (k0_pay5 l3))
      = shapeCast S1x16x128x128
          (fun q : S16x128x128.Idx => pooled ![k0_pay2 l0 q, k0_pay3 l1 q, k0_pay4 l2 q, k0_pay5 l3 q])
          shapeCasts_S16x128x128_S1x16x128x128 := rfl

theorem hz4 : (![0, 0, 0, 0] : Fin 4 → Nat) = fun _ => 0 := funext fun a => by fin_cases a <;> rfl

/-- WHAT THE BODY LEAVES in its output block, at an index: the pooled value of the input block's four taps there. -/
theorem body_at (x0 : Vec Ideal S1x16x4x128x128 .f32) (y : S1x16x128x128.Idx) :
    out0_1 x0 y = pooled fun k => x0 (ix5 (0 : Fin 1) (y 1) k (y 2) (y 3)) := by
  unfold out0_1
  rw [View.canon_unit_zero hz4, payload_pointwise]
  have hy0 : (y 0).val < 1 := (y 0).isLt
  refine (shapeCast_apply _ shapeCasts_S16x128x128_S1x16x128x128 y (ix3 (y 1) (y 2) (y 3)) ?_).trans ?_
  · rw [Shape.rowMajor_val_three, Shape.rowMajor_val_four]
    show ((y 1).val * 128 + (y 2).val) * 128 + (y 3).val
      = (((y 0).val * 16 + (y 1).val) * 128 + (y 2).val) * 128 + (y 3).val
    omega
  · refine congrArg pooled (funext fun k => ?_)
    match k with
    | ⟨0, _⟩ => exact plane_at x0 0 _ _ (y 1) (y 2) (y 3)
    | ⟨1, _⟩ => exact plane_at x0 1 _ _ (y 1) (y 2) (y 3)
    | ⟨2, _⟩ => exact plane_at x0 2 _ _ (y 1) (y 2) (y 3)
    | ⟨3, _⟩ => exact plane_at x0 3 _ _ (y 1) (y 2) (y 3)

/-! ## The input window's array, and a block's taps -/

variable (m : (ℓ : Loc nD τ sig) → Buf (Elt Ideal) ℓ) (ρ : Dev nD → PrngReg)

/-- The array the region's input window stages is the patch layout of the input: the three host operations before
    the region, applied to the argument. -/
theorem patches_eq (c : Dev nD) :
    (V m c main_v2 : S16x128x4x128x128.Idx → EReal)
      = shapeCast S16x128x4x128x128
          (transpose S16x128x2x2x128x128 [0, 1, 3, 5, 2, 4]
            (shapeCast S16x128x128x2x128x2 (m ((c : Thread nD τ).loc main_arg0)) shapeCasts_S16x128x256x256_S16x128x128x2x128x2)
            transposes_S16x128x128x2x128x2_S16x128x2x2x128x128_0_1_3_5_2_4)
          shapeCasts_S16x128x2x2x128x128_S16x128x4x128x128 := by
  dsimp only [Gen.V, Gen.hostOps0]; after_results; rfl

/-- The printed index maps, decided over the 128 grid points: the input block moves with the output block on the
    batch and channel-group axes and sits at block 0 on the others; the output's block indices stay in range. -/
theorem idx_facts : ∀ t : Fin cfg0.N,
    win0_0.index t (0 : Fin 5) = win0_1.index t (0 : Fin 4) ∧ win0_0.index t (1 : Fin 5) = win0_1.index t (1 : Fin 4)
    ∧ win0_0.index t (2 : Fin 5) = 0 ∧ win0_0.index t (3 : Fin 5) = 0 ∧ win0_0.index t (4 : Fin 5) = 0
    ∧ win0_1.index t (2 : Fin 4) = 0 ∧ win0_1.index t (3 : Fin 4) = 0
    ∧ win0_1.index t (0 : Fin 4) ≤ 15 ∧ win0_1.index t (1 : Fin 4) ≤ 7 :=
  (by decide +kernel : ∀ t : Fin grid0.N, _)

/-- Every (batch, channel group) pair is some grid point's output block. -/
theorem idx_onto : ∀ (q0 : Fin 16) (q1 : Fin 8), ∃ t : Fin cfg0.N, win0_1.index t = ![q0.val, q1.val, 0, 0] :=
  (by decide +kernel : ∀ (q0 : Fin 16) (q1 : Fin 8), ∃ t : Fin grid0.N, win0_1.index t = ![q0.val, q1.val, 0, 0])

/-- Tap `k` at position `y` of point `t`'s input block is tap `k` of the output element that position `y` of point
    `t`'s output block is. -/
theorem block_tap (c : Dev nD) (t : Fin cfg0.N) (y : S1x16x128x128.Idx) (k : Fin 4) :
    iblk m c 0 t (ix5 (0 : Fin 1) (y 1) k (y 2) (y 3))
      = m ((c : Thread nD τ).loc main_arg0)
          (tapIdx ((((cfg0.win 1).blk t).view.emb y) 0) ((((cfg0.win 1).blk t).view.emb y) 1)
            ((((cfg0.win 1).blk t).view.emb y) 2) ((((cfg0.win 1).blk t).view.emb y) 3) k) := by
  obtain ⟨f0, f1, f2, f3, f4, f5, f6, f7, f8⟩ := idx_facts t
  have hy0 : (y 0).val < 1 := (y 0).isLt
  have hy1 : (y 1).val < 16 := (y 1).isLt
  have hy2 : (y 2).val < 128 := (y 2).isLt
  have hy3 : (y 3).val < 128 := (y 3).isLt
  have hk : k.val < 4 := k.isLt
  show V m c main_v2 (((cfg0.win 0).blk t).view.emb (ix5 (0 : Fin 1) (y 1) k (y 2) (y 3))) = _
  have he : ((cfg0.win 0).blk t).view.emb (ix5 (0 : Fin 1) (y 1) k (y 2) (y 3))
      = ix5 ((((cfg0.win 1).blk t).view.emb y) 0) ((((cfg0.win 1).blk t).view.emb y) 1) k
          ((((cfg0.win 1).blk t).view.emb y) 2) ((((cfg0.win 1).blk t).view.emb y) 3) := by
    funext a; apply Fin.ext
    match a with
    | ⟨0, _⟩ =>
      show win0_0.index t (0 : Fin 5) * 1 + 1 * 0 = win0_1.index t (0 : Fin 4) * 1 + 1 * (y 0).val; omega
    | ⟨1, _⟩ =>
      show win0_0.index t (1 : Fin 5) * 16 + 1 * (y 1).val = win0_1.index t (1 : Fin 4) * 16 + 1 * (y 1).val; omega
    | ⟨2, _⟩ => show win0_0.index t (2 : Fin 5) * 4 + 1 * k.val = k.val; omega
    | ⟨3, _⟩ =>
      show win0_0.index t (3 : Fin 5) * 128 + 1 * (y 2).val = win0_1.index t (2 : Fin 4) * 128 + 1 * (y 2).val; omega
    | ⟨4, _⟩ =>
      show win0_0.index t (4 : Fin 5) * 128 + 1 * (y 3).val = win0_1.index t (3 : Fin 4) * 128 + 1 * (y 3).val; omega
  rw [he, patches_eq]
  exact kernel_layout _ _ _ _ _ _ k _ _

/-! ## From blocks to the array -/

/-- WHAT POINT `t` WRITES BACK is block `t` of the pooled array of the argument. -/
theorem flushed_eq (c : Dev nD) (t : Fin cfg0.N) :
    (dats m 0 c).flushed 1 t
      = ((cfg0.win 1).blk t).view.read (Elt Ideal) (pooledAt (m ((c : Thread nD τ).loc main_arg0))) := by
  rw [Value.flushed1]
  funext y
  show out0_1 (iblk m c 0 t) y = pooledAt (m ((c : Thread nD τ).loc main_arg0)) (((cfg0.win 1).blk t).view.emb y)
  refine (body_at (iblk m c 0 t) y).trans ?_
  unfold pooledAt
  exact congrArg pooled (funext fun k => block_tap m c t y k)

/-- An index of the output array is in point `t`'s block iff each coordinate is in the block's range on its axis. -/
theorem mem_blk (t : Fin cfg0.N) (i : S16x128x128x128.Idx) :
    i ∈ ((cfg0.win 1).blk t).view.set ↔ ∀ a : Fin 4, win0_1.index t a * S1x16x128x128.size a ≤ (i a).val
      ∧ (i a).val < win0_1.index t a * S1x16x128x128.size a + S1x16x128x128.size a := by
  show i ∈ ((View.whole main_v3).slice (win0_1.rect t)).set ↔ _
  rw [View.set_slice_whole, Rect.mem_set_unit]
  exact Iff.rfl

/-- The output blocks tile the array: element (b, c, i, j) is in the block of batch b and channel group c / 16. -/
theorem cover (i : S16x128x128x128.Idx) :
    ∃ t : Fin cfg0.N, (cfg0.win 1).flush t = true ∧ i ∈ ((cfg0.win 1).blk t).view.set := by
  have hi0 : (i 0).val < 16 := (i 0).isLt
  have hi1 : (i 1).val < 128 := (i 1).isLt
  have hi2 : (i 2).val < 128 := (i 2).isLt
  have hi3 : (i 3).val < 128 := (i 3).isLt
  obtain ⟨t, ht⟩ := idx_onto ⟨(i 0).val, hi0⟩ ⟨(i 1).val / 16, by omega⟩
  have q0 : win0_1.index t (0 : Fin 4) = (i 0).val := congrFun ht 0
  have q1 : win0_1.index t (1 : Fin 4) = (i 1).val / 16 := congrFun ht 1
  have q2 : win0_1.index t (2 : Fin 4) = 0 := congrFun ht 2
  have q3 : win0_1.index t (3 : Fin 4) = 0 := congrFun ht 3
  refine ⟨t, flush0_1 t, ?_⟩
  rw [mem_blk]
  intro a
  match a with
  | ⟨0, _⟩ => show win0_1.index t (0 : Fin 4) * 1 ≤ (i 0).val ∧ (i 0).val < win0_1.index t (0 : Fin 4) * 1 + 1; omega
  | ⟨1, _⟩ => show win0_1.index t (1 : Fin 4) * 16 ≤ (i 1).val ∧ (i 1).val < win0_1.index t (1 : Fin 4) * 16 + 16; omega
  | ⟨2, _⟩ => show win0_1.index t (2 : Fin 4) * 128 ≤ (i 2).val ∧ (i 2).val < win0_1.index t (2 : Fin 4) * 128 + 128; omega
  | ⟨3, _⟩ => show win0_1.index t (3 : Fin 4) * 128 ≤ (i 3).val ∧ (i 3).val < win0_1.index t (3 : Fin 4) * 128 + 128; omega

/-- THE ARRAY after the run is the pooled array of the argument. -/
theorem final (c : Dev nD) :
    (dats m 0 c).arrAt 1 cfg0.N = pooledAt (m ((c : Thread nD τ).loc main_arg0)) :=
  (dats m 0 c).arrAt_eq_of_cover 1 (pooledAt (m ((c : Thread nD τ).loc main_arg0))) (fun t _ => flushed_eq m c t) cover

/-- THE RUN: every weakly fair execution terminates with the result array at the pooled array of the argument,
    and the argument unchanged. -/
theorem run : θ_run defs (onTc (τ := τ) (main (F := Ideal))) ⟨m, fun _ => 0, ρ⟩ fun r => ∀ c : Dev nD,
      r.2.mem ((c : Thread nD τ).loc main_v3) = pooledAt (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.PoolValue

end
-- ==== Proof.RefValue.lean ====
/-
  The reference's result array is the pooled array of the input, when the input is real.

  The reference builds the patch array with the tap axis last, [16, 128, 128, 128, 4], computes every tap's weight
  elementwise, sums the weights over the tap axis (from the zero literal), divides each weight by that sum
  broadcast back over the tap axis, multiplies by the taps and sums over the tap axis again. Read at an output
  index (b, c, i, j) this is  0 + Σₖ pₖ · (W(pₖ) / (0 + Σₖ' W(pₖ')))  over the four taps pₖ of the patch; with real
  taps the law of the weights' module turns it into the quotient of sums that is the specification.
-/
import proofs.«426474_j30726196035749_4_alg».proof.Proof.Gen.ReferenceIdeal.Read
import proofs.«426474_j30726196035749_4_alg».proof.Proof.Taps
import Idealize.ShloMosaic.Lib.ValueIdx

noncomputable section

namespace Cert.ReferenceIdeal.PoolValue

open Cert.ReferenceIdeal Cert.ReferenceIdeal.Gen Cert.ReferenceIdeal.Read Cert.Pool
open Idealize.ShloMosaic Idealize.ShloMosaic.TcCoe Idealize.ShloMosaic.ValueIdx

variable (x : (⟨S16x128x256x256, .f32⟩ : BufTy).Contents (Elt Ideal))

/-- The patch array at (b, c, i, j, k) is tap k of output element (b, c, i, j). -/
theorem patch_at (o : S16x128x128x128.Idx) (k : Fin 4) :
    val_main_v2 (F := Ideal) x (idx_main_v14 o k) = x (tapIdx (o 0) (o 1) (o 2) (o 3) k) := by
  have he : idx_main_v14 o k = ix5 (o 0) (o 1) (o 2) (o 3) k := by
    funext a; match a with | ⟨0, _⟩ => rfl | ⟨1, _⟩ => rfl | ⟨2, _⟩ => rfl | ⟨3, _⟩ => rfl | ⟨4, _⟩ => rfl
  rw [he]
  unfold val_main_v2 val_main_v1 val_main_v0
  exact reference_layout x _ _ _ (o 0) (o 1) (o 2) (o 3) k

/-- The weight array at an index is the weight function of the patch array there: every operation between the
    two acts element by element (the scalar constants are broadcast). -/
theorem weight_at (j : S16x128x128x128x4.Idx) :
    val_main_v8 (F := Ideal) x j = weight (val_main_v2 (F := Ideal) x j) := by
  rw [← weightRef_eq]
  simp only [val_main_v8_apply, val_main_v4_apply, val_main_v3_apply, val_main_cst_apply, val_main_v7_apply,
    val_main_call0_v4_apply, val_main_call0_v3_apply, val_main_v6_apply, val_main_v5_apply, val_main_cst_0_apply,
    val_main_call0_v2_apply, val_main_call0_cst_apply, val_main_call0_v6_apply, val_main_call0_v5_apply,
    val_main_call0_v11_apply, val_main_call0_v1_apply, val_main_call0_v0_apply, val_main_call0_v10_apply,
    val_main_call0_v9_apply, val_main_call0_v8_apply, val_main_call0_v7_apply]
  rfl

/-- The sum of the weights, broadcast back over the tap axis, read at tap `k` of an output element: the sum over
    that element's four taps, whatever `k`. -/
theorem idx_back (o : S16x128x128x128.Idx) (k k' : Fin 4) :
    idx_main_v9 (idx_main_v10 (idx_main_v11 (idx_main_v14 o k))) k' = idx_main_v14 o k' := by
  funext a; match a with | ⟨0, _⟩ => rfl | ⟨1, _⟩ => rfl | ⟨2, _⟩ => rfl | ⟨3, _⟩ => rfl | ⟨4, _⟩ => rfl

/-- One summand of the reference's result: the tap times its normalised weight. -/
theorem summand_at (o : S16x128x128x128.Idx) (k : Fin 4) :
    val_main_v13 (F := Ideal) x (idx_main_v14 o k)
      = x (tapIdx (o 0) (o 1) (o 2) (o 3) k)
          * Ideal.div (weight (x (tapIdx (o 0) (o 1) (o 2) (o 3) k)))
              (zro + ∑ k' : Fin 4, weight (x (tapIdx (o 0) (o 1) (o 2) (o 3) k'))) := by
  rw [val_main_v13_apply, val_main_v12_apply, val_main_v11_apply, val_main_v10_apply, val_main_v9_apply, weight_at,
    patch_at]
  simp only [idx_back, weight_at, patch_at]
  rfl

/-- THE REFERENCE IS THE SPECIFICATION on a real input. -/
theorem reference_eq (hx : ∀ i, ∃ r : ℝ, x i = (r : EReal)) :
    val_main_v14 (F := Ideal) x = pooledAt x := by
  funext o
  rw [val_main_v14_apply]
  simp only [summand_at]
  exact pooled_eq_normalised (fun k => x (tapIdx (o 0) (o 1) (o 2) (o 3) k)) (fun k => hx _)

end Cert.ReferenceIdeal.PoolValue

end
-- ==== Proof.lean ====
/-
  2×2 softplus-weighted pooling: the kernel and its reference compute the same array over the extended reals.

  Input x : [16, 128, 256, 256]. Output element (b, c, i, j) of [16, 128, 128, 128] is the weighted mean of the four
  taps p₀ … p₃ of the 2×2 patch of plane (b, c) at (2i, 2j), with weights W(p) = p for p > 10 and
  W(p) = log(1 + exp p) otherwise (in the stable form max(p, 0) + log(1 + exp(-|p|))).

  The kernel computes (Σ pₖ·W(pₖ)) / (Σ W(pₖ)) on blocks of 16 channels; the reference normalises the weights first,
  Σ pₖ · (W(pₖ) / Σ W(pₖ')). Both lay the patches out by the same split of the spatial axes, tap k = 2·k₀ + k₁
  (Proof/Taps.lean). The two values agree when the taps are real numbers, which the precondition grants
  (Proof/Finite.lean): then every weight is a positive real, the sum of weights is a nonzero real, division by it
  is multiplication by its reciprocal, and the reciprocal distributes over the sum (Proof/Weight.lean). At an
  infinite tap the two spellings could differ (∞ / ∞), which is why the precondition is used.

  Proof/KernelValue.lean: after the kernel's run the result array is the specification `pooledAt` of the argument.
  Proof/RefValue.lean: the reference's result term is `pooledAt` of a real argument.
  The three frames are the generated ones; the idealization rewrote nothing, so `preserves` is `True`.
-/
import proofs.«426474_j30726196035749_4_alg».proof.Defs
import proofs.«426474_j30726196035749_4_alg».proof.Proof.Gen.Kernel
import proofs.«426474_j30726196035749_4_alg».proof.Proof.Gen.Kernel.Skeleton
import proofs.«426474_j30726196035749_4_alg».proof.Proof.Gen.Kernel.Launch
import proofs.«426474_j30726196035749_4_alg».proof.Proof.Gen.Kernel.Points
import proofs.«426474_j30726196035749_4_alg».proof.Proof.Gen.Kernel.Frame
import proofs.«426474_j30726196035749_4_alg».proof.Proof.Gen.KernelIdeal
import proofs.«426474_j30726196035749_4_alg».proof.Proof.Gen.KernelIdeal.Skeleton
import proofs.«426474_j30726196035749_4_alg».proof.Proof.Gen.KernelIdeal.Launch
import proofs.«426474_j30726196035749_4_alg».proof.Proof.Gen.KernelIdeal.Points
import proofs.«426474_j30726196035749_4_alg».proof.Proof.Gen.KernelIdeal.Frame
import proofs.«426474_j30726196035749_4_alg».proof.Proof.Gen.ReferenceIdeal
import proofs.«426474_j30726196035749_4_alg».proof.Proof.Gen.Pre_finite_inputs
import proofs.«426474_j30726196035749_4_alg».proof.Proof.Gen.KernelIdeal.Value
import proofs.«426474_j30726196035749_4_alg».proof.Proof.Gen.ReferenceIdeal.Run
import proofs.«426474_j30726196035749_4_alg».proof.Proof.Gen.ReferenceIdeal.Read
import proofs.«426474_j30726196035749_4_alg».proof.Proof.Finite
import proofs.«426474_j30726196035749_4_alg».proof.Proof.KernelValue
import proofs.«426474_j30726196035749_4_alg».proof.Proof.RefValue
import Idealize.ShloMosaic.Adequacy
import Idealize.ShloMosaic.Init

noncomputable section

namespace Cert.Proof

open Idealize.ShloMosaic Idealize.ShloMosaic.TcCoe Idealize.SL.Sem

/-- The word-level kernel terminates without a fault and leaves its argument unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight-line host program: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs, from memories agreeing on the input, end with the pooled array of that input: the kernel on
    any input, the reference on a real one, which the precondition makes it. -/
theorem algebraic : Cert.algebraic_KernelIdeal_ReferenceIdeal := by
  intro m ρ m' ρ' hpre hagree
  refine ⟨fun c => Cert.Pool.pooledAt (m ((c.tc : Thread Cert.KernelIdeal.nD Cert.KernelIdeal.τ).loc Cert.KernelIdeal.main_arg0)),
    Cert.KernelIdeal.PoolValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, hagree c]
  exact Cert.ReferenceIdeal.PoolValue.reference_eq _ (fun i => Cert.Pool.real_of_pre _ (hpre c) i)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
